-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x3584 : Shape := ⟨2, ![4096, 3584]⟩
abbrev S4096x28 : Shape := ⟨2, ![4096, 28]⟩
abbrev S4096x224 : Shape := ⟨2, ![4096, 224]⟩
abbrev S4096x4096 : Shape := ⟨2, ![4096, 4096]⟩
abbrev S4096x512 : Shape := ⟨2, ![4096, 512]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x3584 : S_.BroadcastsInDim S4096x3584 (![] : Fin 0 → Fin S4096x3584.rank)
  reducesTo_S4096x3584_S_d0_1 : S4096x3584.ReducesTo [0, 1] S_
  bcast_S_S4096x28 : S_.BroadcastsInDim S4096x28 (![] : Fin 0 → Fin S4096x28.rank)
  reducesTo_S4096x28_S_d0_1 : S4096x28.ReducesTo [0, 1] S_
  bcast_S_S4096x224 : S_.BroadcastsInDim S4096x224 (![] : Fin 0 → Fin S4096x224.rank)
  reducesTo_S4096x224_S_d0_1 : S4096x224.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x4096 .f32) (main_arg5 : FVec F S4096x512 .f32) (main_arg6 : FVec F S4096x16 .f32) (main_v13 : IVec S_ 1) (main_v16 : IVec S4096x224 1) : IVec S_ 1 :=
  let main_c_5 : IVec S_ 1 := constantI S_ 1 1#1
  let main_v17 : IVec S_ 1 := (fun x v => Host.reduce IntOp.andi x v reducesTo_S4096x224_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x16 .f32 := Host.absf main_arg6
  let main_cst_10 : FVec F S_ .f32 := constant S_ .f32 0x7F800000#32
  let main_v30 : FVec F S4096x16 .f32 := broadcastInDim S4096x16 ![] bcast_S_S4096x16 main_cst_10
  let main_v31 : IVec S4096x16 1 := cmpf .olt main_v29 main_v30
  let main_c_11 : IVec S_ 1 := constantI S_ 1 1#1
  let main_v32 : IVec S_ 1 := (fun x v => Host.reduce IntOp.andi x v reducesTo_S4096x16_S_d0_1 h_S_) main_v31 main_c_11
  let main_v33 : IVec S_ 1 := andi main_v28 main_v32
  main_v33

def fn {F : FTy → Type} [FloatOps F] (main_arg0 : FVec F S8192x4096 .f32) (main_arg1 : FVec F S4096x3584 .f32) (main_arg2 : FVec F S4096x28 .f32) (main_arg3 : FVec F S4096x224 .f32) (main_arg4 : FVec F S4096x4096 .f32) (main_arg5 : FVec F S4096x512 .f32) (main_arg6 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x3584 .f32 := Host.absf main_arg1
  let main_cst_0 : FVec F S_ .f32 := constant S_ .f32 0x7F800000#32
  let main_v5 : FVec F S4096x3584 .f32 := broadcastInDim S4096x3584 ![] bcast_S_S4096x3584 main_cst_0
  let main_v6 : IVec S4096x3584 1 := cmpf .olt main_v4 main_v5
  let main_c_1 : IVec S_ 1 := constantI S_ 1 1#1
  let main_v7 : IVec S_ 1 := (fun x v => Host.reduce IntOp.andi x v reducesTo_S4096x3584_S_d0_1 h_S_) main_v6 main_c_1
  let main_v8 : IVec S_ 1 := andi main_v3 main_v7
  let main_v9 : FVec F S4096x28 .f32 := Host.absf main_arg2
  let main_cst_2 : FVec F S_ .f32 := constant S_ .f32 0x7F800000#32
  let main_v10 : FVec F S4096x28 .f32 := broadcastInDim S4096x28 ![] bcast_S_S4096x28 main_cst_2
  let main_v11 : IVec S4096x28 1 := cmpf .olt main_v9 main_v10
  let main_c_3 : IVec S_ 1 := constantI S_ 1 1#1
  let main_v12 : IVec S_ 1 := (fun x v => Host.reduce IntOp.andi x v reducesTo_S4096x28_S_d0_1 h_S_) main_v11 main_c_3
  let main_v13 : IVec S_ 1 := andi main_v8 main_v12
  let main_v14 : FVec F S4096x224 .f32 := Host.absf main_arg3
  let main_cst_4 : FVec F S_ .f32 := constant S_ .f32 0x7F800000#32
  let main_v15 : FVec F S4096x224 .f32 := broadcastInDim S4096x224 ![] bcast_S_S4096x224 main_cst_4
  let main_v16 : IVec S4096x224 1 := cmpf .olt main_v14 main_v15
  fn_part1 (F := F) main_arg4 main_arg5 main_arg6 main_v13 main_v16
-- ==== Kernel.lean ====
abbrev S8192x4096 : Shape := ⟨2, ![8192, 4096]⟩
abbrev S4096x3584 : Shape := ⟨2, ![4096, 3584]⟩
abbrev S4096x28 : Shape := ⟨2, ![4096, 28]⟩
abbrev S4096x224 : Shape := ⟨2, ![4096, 224]⟩
abbrev S4096x4096 : Shape := ⟨2, ![4096, 4096]⟩
abbrev S4096x512 : Shape := ⟨2, ![4096, 512]⟩
abbrev S4096x16 : Shape := ⟨2, ![4096, 16]⟩
abbrev S4096x224x16 : Shape := ⟨3, ![4096, 224, 16]⟩
abbrev S4096x224x1 : Shape := ⟨3, ![4096, 224, 1]⟩
abbrev S4096x28x128 : Shape := ⟨3, ![4096, 28, 128]⟩
abbrev S4096x28x1 : Shape := ⟨3, ![4096, 28, 1]⟩
abbrev S4096x16x32 : Shape := ⟨3, ![4096, 16, 32]⟩
abbrev S4096x16x1 : Shape := ⟨3, ![4096, 16, 1]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 26
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x3584, .f32⟩
  | .hbm, ⟨2, _⟩ => ⟨S4096x28, .f32⟩
  | .hbm, ⟨3, _⟩ => ⟨S4096x224, .f32⟩
  | .hbm, ⟨4, _⟩ => ⟨S4096x4096, .f32⟩
  | .hbm, ⟨5, _⟩ => ⟨S4096x512, .f32⟩
  | .hbm, ⟨6, _⟩ => ⟨S4096x16, .f32⟩
  | .hbm, ⟨7, _⟩ => ⟨S4096x224x16, .f32⟩
  | .hbm, ⟨8, _⟩ => ⟨S4096x224x1, .f32⟩
  | .hbm, ⟨9, _⟩ => ⟨S4096x224x16, .f32⟩
  | .hbm, ⟨10, _⟩ => ⟨S4096x224x16, .f32⟩
  | .hbm, ⟨11, _⟩ => ⟨S4096x3584, .f32⟩
  | .hbm, ⟨12, _⟩ => ⟨S4096x28x128, .f32⟩
  | .hbm, ⟨13, _⟩ => ⟨S4096x28x1, .f32⟩
  | .hbm, ⟨14, _⟩ => ⟨S4096x28x128, .f32⟩
  | .hbm, ⟨15, _⟩ => ⟨S4096x28x128, .f32⟩
  | .hbm, ⟨16, _⟩ => ⟨S4096x3584, .f32⟩
  | .hbm, ⟨17, _⟩ => ⟨S4096x16x32, .f32⟩
  | .hbm, ⟨18, _⟩ => ⟨S4096x16x1, .f32⟩
  | .hbm, ⟨19, _⟩ => ⟨S4096x16x32, .f32⟩
  | .hbm, ⟨20, _⟩ => ⟨S4096x16x32, .f32⟩
  | .hbm, ⟨21, _⟩ => ⟨S4096x512, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x3584_S4096x224x16 : S4096x3584.ShapeCasts S4096x224x16
  bcast_S4096x224_S4096x224x1_0_1 : S4096x224.BroadcastsInDim S4096x224x1 (![0, 1] : Fin 2 → Fin S4096x224x1.rank)
  bcast_S4096x224x1_S4096x224x16_0_1_2 : S4096x224x1.BroadcastsInDim S4096x224x16 (![0, 1, 2] : Fin 3 → Fin S4096x224x16.rank)
  shapeCasts_S4096x224x16_S4096x3584 : S4096x224x16.ShapeCasts S4096x3584
  shapeCasts_S4096x3584_S4096x28x128 : S4096x3584.ShapeCasts S4096x28x128
  bcast_S4096x28_S4096x28x1_0_1 : S4096x28.BroadcastsInDim S4096x28x1 (![0, 1] : Fin 2 → Fin S4096x28x1.rank)
  bcast_S4096x28x1_S4096x28x128_0_1_2 : S4096x28x1.BroadcastsInDim S4096x28x128 (![0, 1, 2] : Fin 3 → Fin S4096x28x128.rank)
  shapeCasts_S4096x28x128_S4096x3584 : S4096x28x128.ShapeCasts S4096x3584
  shapeCasts_S4096x512_S4096x16x32 : S4096x512.ShapeCasts S4096x16x32
  bcast_S4096x16_S4096x16x1_0_1 : S4096x16.BroadcastsInDim S4096x16x1 (![0, 1] : Fin 2 → Fin S4096x16x1.rank)
  bcast_S4096x16x1_S4096x16x32_0_1_2 : S4096x16x1.BroadcastsInDim S4096x16x32 (![0, 1, 2] : Fin 3 → Fin S4096x16x32.rank)
  shapeCasts_S4096x16x32_S4096x512 : S4096x16x32.ShapeCasts S4096x512
  concatenates_S4096x3584_S4096x512_S4096x4096_d1 : Shape.Concatenates [S4096x3584, S4096x512] S4096x4096 1
  transposes_S4096x4096_S4096x4096_1_0 : S4096x4096.Transposes [1, 0] S4096x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x3584 : Shape := ⟨2, ![4096, 3584]⟩
abbrev S4096x28 : Shape := ⟨2, ![4096, 28]⟩
abbrev S4096x224 : Shape := ⟨2, ![4096, 224]⟩
abbrev S4096x4096 : Shape := ⟨2, ![4096, 4096]⟩
abbrev S4096x512 : Shape := ⟨2, ![4096, 512]⟩
abbrev S4096x16 : Shape := ⟨2, ![4096, 16]⟩
abbrev S4096x224x16 : Shape := ⟨3, ![4096, 224, 16]⟩
abbrev S4096x224x1 : Shape := ⟨3, ![4096, 224, 1]⟩
abbrev S4096x28x128 : Shape := ⟨3, ![4096, 28, 128]⟩
abbrev S4096x28x1 : Shape := ⟨3, ![4096, 28, 1]⟩
abbrev S4096x16x32 : Shape := ⟨3, ![4096, 16, 32]⟩
abbrev S4096x16x1 : Shape := ⟨3, ![4096, 16, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x3584, .f32⟩
  | .hbm, ⟨2, _⟩ => ⟨S4096x28, .f32⟩
  | .hbm, ⟨3, _⟩ => ⟨S4096x224, .f32⟩
  | .hbm, ⟨4, _⟩ => ⟨S4096x4096, .f32⟩
  | .hbm, ⟨5, _⟩ => ⟨S4096x512, .f32⟩
  | .hbm, ⟨6, _⟩ => ⟨S4096x16, .f32⟩
  | .hbm, ⟨7, _⟩ => ⟨S4096x224x16, .f32⟩
  | .hbm, ⟨8, _⟩ => ⟨S4096x224x1, .f32⟩
  | .hbm, ⟨9, _⟩ => ⟨S4096x224x16, .f32⟩
  | .hbm, ⟨10, _⟩ => ⟨S4096x224x16, .f32⟩
  | .hbm, ⟨11, _⟩ => ⟨S4096x3584, .f32⟩
  | .hbm, ⟨12, _⟩ => ⟨S4096x28x128, .f32⟩
  | .hbm, ⟨13, _⟩ => ⟨S4096x28x1, .f32⟩
  | .hbm, ⟨14, _⟩ => ⟨S4096x28x128, .f32⟩
  | .hbm, ⟨15, _⟩ => ⟨S4096x28x128, .f32⟩
  | .hbm, ⟨16, _⟩ => ⟨S4096x3584, .f32⟩
  | .hbm, ⟨17, _⟩ => ⟨S4096x16x32, .f32⟩
  | .hbm, ⟨18, _⟩ => ⟨S4096x16x1, .f32⟩
  | .hbm, ⟨19, _⟩ => ⟨S4096x16x32, .f32⟩
  | .hbm, ⟨20, _⟩ => ⟨S4096x16x32, .f32⟩
  | .hbm, ⟨21, _⟩ => ⟨S4096x512, .f32⟩
  | .hbm, ⟨22, _⟩ => ⟨S4096x4096, .f32⟩
  | .hbm, ⟨23, _⟩ => ⟨S4096x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S4096x3584_S4096x224x16 : S4096x3584.ShapeCasts S4096x224x16
  bcast_S4096x224_S4096x224x1_0_1 : S4096x224.BroadcastsInDim S4096x224x1 (![0, 1] : Fin 2 → Fin S4096x224x1.rank)
  bcast_S4096x224x1_S4096x224x16_0_1_2 : S4096x224x1.BroadcastsInDim S4096x224x16 (![0, 1, 2] : Fin 3 → Fin S4096x224x16.rank)
  shapeCasts_S4096x224x16_S4096x3584 : S4096x224x16.ShapeCasts S4096x3584
  shapeCasts_S4096x3584_S4096x28x128 : S4096x3584.ShapeCasts S4096x28x128
  bcast_S4096x28_S4096x28x1_0_1 : S4096x28.BroadcastsInDim S4096x28x1 (![0, 1] : Fin 2 → Fin S4096x28x1.rank)
  bcast_S4096x28x1_S4096x28x128_0_1_2 : S4096x28x1.BroadcastsInDim S4096x28x128 (![0, 1, 2] : Fin 3 → Fin S4096x28x128.rank)
  shapeCasts_S4096x28x128_S4096x3584 : S4096x28x128.ShapeCasts S4096x3584
  shapeCasts_S4096x512_S4096x16x32 : S4096x512.ShapeCasts S4096x16x32
  bcast_S4096x16_S4096x16x1_0_1 : S4096x16.BroadcastsInDim S4096x16x1 (![0, 1] : Fin 2 → Fin S4096x16x1.rank)
  bcast_S4096x16x1_S4096x16x32_0_1_2 : S4096x16x1.BroadcastsInDim S4096x16x32 (![0, 1, 2] : Fin 3 → Fin S4096x16x32.rank)
  shapeCasts_S4096x16x32_S4096x512 : S4096x16x32.ShapeCasts S4096x512
  concatenates_S4096x3584_S4096x512_S4096x4096_d1 : Shape.Concatenates [S4096x3584, S4096x512] S4096x4096 1
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BlockSum.lean ====
/-
  A finite sum cut into consecutive blocks. A sum over the first `n * b` naturals is the sum, over the `n` blocks
  of `b` consecutive naturals, of each block's own sum: term `b * s + k` is the `k`-th term of block `s`. Only
  commutativity and associativity of the addition are used, so the law holds in any commutative additive monoid — on
  the extended reals in particular, infinite terms included.
-/
import Mathlib.Algebra.BigOperators.Fin
import Mathlib.Logic.Equiv.Fin.Basic

namespace Cert.BlockSum

/-- The sum of `f` over `Fin N`, with `N = n * b`, block by block: the outer sum runs over the blocks `s < n`, the
    inner one over the places `k < b` inside a block, and the term at place `k` of block `s` is `f (b * s + k)`. -/
theorem sum_blocks {M : Type*} [AddCommMonoid M] (n b N : ℕ) (hN : N = n * b) (f : ℕ → M) :
    ∑ k : Fin N, f k.val = ∑ s ∈ Finset.range n, ∑ k : Fin b, f (b * s + k.val) := by
  subst hN
  rw [Finset.sum_range, ← Equiv.sum_comp finProdFinEquiv, Fintype.sum_prod_type]
  refine Finset.sum_congr rfl fun s _ => Finset.sum_congr rfl fun k _ => ?_
  exact congrArg f (by rw [finProdFinEquiv_apply_val, Nat.add_comm])

end Cert.BlockSum
-- ==== Proof.Payload.lean ====
/-
  The kernel body's arithmetic, read at one entry of the output block, on the extended reals.
  The body loads a [2048, 512] block `a` of the left operand, a [512, 1024] block `w` of the right operand and the
  [2048, 1024] output block `acc`, and stores `acc + a · w`. At the exact values a change of float format is the
  identity and the matrix unit's product into a zero accumulator is the plain sum over the contracted axis, so entry
  `(r, q)` of what is stored is `acc (r, q) + ∑ k < 512, a (r, k) * w (k, q)`. At the first step of a run the block is
  first filled with zeros, so `acc` is `0` there.
-/
import proofs.«423194_j89979564851799_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The operand entries a [2048, 512] × [512, 1024] product reads -/

/-- The left operand's row is the output's row … -/
theorem lhs_row (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
/-- … its column the contracted index; -/
theorem lhs_col (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
/-- the right operand's row is the contracted index … -/
theorem rhs_row (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
/-- … and its column the output's column. -/
theorem rhs_col (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The block product into a zero accumulator, at entry `(r, q)`: the sum over `k < 512` of `a (r, k) * w (k, q)`. -/
theorem block_product_apply (a : FVec Ideal S2048x512 .bf16) (w : FVec Ideal S512x1024 .bf16) (y : S2048x1024.Idx) :
    matmul dot_S2048x512_S512x1024_S2048x1024_1_0_0_1_n_n none a w (constant S2048x1024 .f32 0x00000000#32) y
      = ∑ k : Fin 512, a (ix2 (y 0) k) * w (ix2 k (y 1)) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx y ((ValueIdx.contrEquiv1 dot_S2048x512_S512x1024_S2048x1024_1_0_0_1_n_n 512 rfl rfl).symm k) = ix2 (y 0) k := funext fun a => Fin.ext (by
    match a with
    | ⟨0, _⟩ => exact lhs_row _ _
    | ⟨1, _⟩ => exact (lhs_col _ _).trans hk)
  have er : dot_S2048x512_S512x1024_S2048x1024_1_0_0_1_n_n.rhsIdx y ((ValueIdx.contrEquiv1 dot_S2048x512_S512x1024_S2048x1024_1_0_0_1_n_n 512 rfl rfl).symm k) = ix2 k (y 1) := funext fun a => Fin.ext (by
    match a with
    | ⟨0, _⟩ => exact (rhs_row _ _).trans hk
    | ⟨1, _⟩ => exact rhs_col _ _)
  rw [el, er]
  rfl

/-! ## The two stored values -/

/-- The value a run's first step first fills the block with is zero everywhere. -/
theorem zero_fill_apply (y : S2048x1024.Idx) : k0_pay1 (F := Ideal) y = 0 := by
  show Ideal.ofBits .f32 0x00000000#32 = 0
  exact Ideal.ofBits_zero_f32

/-- What a step stores, at entry `(r, q)`: what the block held there plus the block product's entry. -/
theorem step_apply (a : Vec Ideal S2048x512 .f32) (acc : Vec Ideal S2048x1024 .f32) (w : Vec Ideal S512x1024 .bf16)
    (y : S2048x1024.Idx) :
    k0_pay2 (F := Ideal) a acc w y = acc y + ∑ k : Fin 512, a (ix2 (y 0) k) * w (ix2 k (y 1)) := by
  unfold k0_pay2
  simp only [shapeCast_self]
  rw [addf_apply, block_product_apply]
  rfl

end Cert.KernelIdeal.Payload

end
-- ==== Proof.Blocks.lean ====
/-
  The two input blocks of a grid point, as entries of the whole arrays.
  The grid has 4 × 4 × 8 points; point `t` has row-block `t / 32`, column-block `t / 8 % 4` and step `t % 8` along the
  contracted axis. Its left block is rows `2048 * (t / 32) …` and columns `512 * (t % 8) …` of the left operand (the
  first argument, which no host operation writes); its right block is rows `512 * (t % 8) …` and columns
  `1024 * (t / 8 % 4) …` of the weight array the host operations leave before the region.
-/
import proofs.«423194_j89979564851799_3_alg».proof.Proof.Gen.KernelIdeal.Frame
import Idealize.ShloMosaic.Lib.Pipeline.Value

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The left window's block index at point `t`: (row-block, step). Decided over the 128 points. -/
theorem left_index : ∀ t : Fin cfg0.N, win0_0.index t (0 : Fin 2) = t.val / 32 ∧ win0_0.index t (1 : Fin 2) = t.val % 8 :=
  (by decide +kernel : ∀ t : Fin grid0.N, _)

/-- The right window's block index at point `t`: (step, column-block). Decided over the 128 points. -/
theorem right_index : ∀ t : Fin cfg0.N, win0_1.index t (0 : Fin 2) = t.val % 8 ∧ win0_1.index t (1 : Fin 2) = t.val / 8 % 4 :=
  (by decide +kernel : ∀ t : Fin grid0.N, _)

/-- Entry `y` of point `t`'s left block is the left operand at row `2048 * (t / 32) + y₀`, column `512 * (t % 8) + y₁`. -/
theorem left_block_apply (c : Dev nD) (t : Fin cfg0.N) (y : S2048x512.Idx) (j : S8192x4096.Idx)
    (h0 : (j 0).val = 2048 * (t.val / 32) + (y 0).val) (h1 : (j 1).val = 512 * (t.val % 8) + (y 1).val) :
    (iblk m c 0 t : Vec F S2048x512 .f32) y = m ((c : Thread nD τ).loc main_arg0) j := by
  obtain ⟨e0, e1⟩ := left_index t
  unfold iblk
  rw [View.read_apply]
  show V m c main_arg0 _ = _
  rw [V_main_arg0]
  congr 1
  funext a
  apply Fin.ext
  match a with
  | ⟨0, _⟩ => show win0_0.index t (0 : Fin 2) * 2048 + 1 * (y 0).val = (j 0).val; rw [e0, h0]; omega
  | ⟨1, _⟩ => show win0_0.index t (1 : Fin 2) * 512 + 1 * (y 1).val = (j 1).val; rw [e1, h1]; omega

/-- Entry `y` of point `t`'s right block is the staged weight array at row `512 * (t % 8) + y₀`, column
    `1024 * (t / 8 % 4) + y₁`. -/
theorem right_block_apply (c : Dev nD) (t : Fin cfg0.N) (y : S512x1024.Idx) (j : S4096x4096.Idx)
    (h0 : (j 0).val = 512 * (t.val % 8) + (y 0).val) (h1 : (j 1).val = 1024 * (t.val / 8 % 4) + (y 1).val) :
    (iblk m c 1 t : Vec F S512x1024 .bf16) y = V m c main_v17 j := by
  obtain ⟨e0, e1⟩ := right_index t
  unfold iblk
  rw [View.read_apply]
  show V m c main_v17 _ = V m c main_v17 j
  congr 1
  funext a
  apply Fin.ext
  match a with
  | ⟨0, _⟩ => show win0_1.index t (0 : Fin 2) * 512 + 1 * (y 0).val = (j 0).val; rw [e0, h0]; omega
  | ⟨1, _⟩ => show win0_1.index t (1 : Fin 2) * 1024 + 1 * (y 1).val = (j 1).val; rw [e1, h1]; omega

end Cert.KernelIdeal.Blocks

end
-- ==== Proof.KernelValue.lean ====
/-
  What the kernel leaves in its result array, entry by entry, on the extended reals.
  The output block at (row-block, column-block) is held in place over the 8 consecutive grid points of its run and
  written back after the last one. The first point zeroes it and adds the product of that point's two input blocks;
  each later point adds its own product. So after the run, entry `(r, q)` of the block is `0` plus the sum over the
  8 steps `s` of `∑ k < 512, a_s (r, k) * w_s (k, q)`. Step `s`'s left block is columns `512 s …` of the left operand's
  row and its right block is rows `512 s …` of the staged weight's column, so the 8 × 512 terms are the terms
  `x (i₀, n) * W (n, i₁)`, `n < 4096`, taken block by block: their sum is the full contraction.
-/
import proofs.«423194_j89979564851799_3_alg».proof.Proof.Gen.KernelIdeal.Value
import proofs.«423194_j89979564851799_3_alg».proof.Proof.BlockSum
import proofs.«423194_j89979564851799_3_alg».proof.Proof.Payload
import proofs.«423194_j89979564851799_3_alg».proof.Proof.Blocks

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Names of literal type for the blocks and the arrays -/

/-- Point `t`'s left block and right block, … -/
abbrev leftBlock (c : Dev nD) (t : Fin cfg0.N) : Vec Ideal S2048x512 .f32 := iblk m c 0 t
abbrev rightBlock (c : Dev nD) (t : Fin cfg0.N) : Vec Ideal S512x1024 .bf16 := iblk m c 1 t
/-- … the left operand as launched and the weight array the region finds staged. -/
abbrev leftArr (c : Dev nD) : Vec Ideal S8192x4096 .f32 := m ((c : Thread nD τ).loc main_arg0)
abbrev weightArr (c : Dev nD) : Vec Ideal S4096x4096 .bf16 := V m c main_v17

/-! ## The run's fold at an entry -/

/-- What point `n` adds to entry `y` of the output block: its block product's entry (zero past the grid, where it is
    never used). -/
def addend (c : Dev nD) (n : ℕ) (y : S2048x1024.Idx) : EReal :=
  if h : n < cfg0.N then ∑ k : Fin 512, leftBlock m c ⟨n, h⟩ (ix2 (y 0) k) * rightBlock m c ⟨n, h⟩ (ix2 k (y 1)) else 0

/-- A run's first point leaves `0` plus its addend, … -/
theorem reset_apply (c : Dev nD) (n : ℕ) (h : n < cfg0.N) (y : S2048x1024.Idx) :
    Value.reset2 m c n h y = 0 + addend m c n y := by
  unfold addend
  rw [dif_pos h]
  show k0_pay2 (F := Ideal) (leftBlock m c ⟨n, h⟩) (k0_pay1 (F := Ideal)) (rightBlock m c ⟨n, h⟩) y = _
  refine (Payload.step_apply (leftBlock m c ⟨n, h⟩) (k0_pay1 (F := Ideal)) (rightBlock m c ⟨n, h⟩) y).trans ?_
  rw [Payload.zero_fill_apply]

/-- … and every later point what the point before left plus its own. -/
theorem step_apply (c : Dev nD) (n : ℕ) (h : n < cfg0.N) (acc : Vec Ideal S2048x1024 .f32) (y : S2048x1024.Idx) :
    Value.step2 m c n h acc y = acc y + addend m c n y := by
  unfold addend
  rw [dif_pos h]
  show k0_pay2 (F := Ideal) (leftBlock m c ⟨n, h⟩) acc (rightBlock m c ⟨n, h⟩) y = _
  exact Payload.step_apply (leftBlock m c ⟨n, h⟩) acc (rightBlock m c ⟨n, h⟩) y

/-- After the 8 points of the run that starts at point `b`, entry `y` holds `0` plus the 8 addends. -/
theorem fold_apply (c : Dev nD) (b : ℕ) (h : b + 7 < cfg0.N) (y : S2048x1024.Idx) :
    Pipeline.accAt (Value.reset2 m c) (Value.step2 m c) b 7 h y = 0 + ∑ s ∈ Finset.range 8, addend m c (b + s) y :=
  Pipeline.accAt_add_apply (Value.reset2 m c) (Value.step2 m c) (fun _ => (0 : EReal)) (addend m c) b 7
    (fun hb y => reset_apply m c b hb y) (fun n hn acc y _ _ => step_apply m c n hn acc y) 7 (le_refl 7) h y

/-! ## The addends as terms of the whole arrays -/

/-- Term `n` of the contraction for result entry `i`: left operand at `(i₀, n)` times weight at `(n, i₁)` (zero for
    `n ≥ 4096`, never used). -/
def term (c : Dev nD) (i : S8192x4096.Idx) (n : ℕ) : EReal :=
  if h : n < 4096 then leftArr m c (ix2 (i 0) ⟨n, h⟩) * weightArr m c (ix2 ⟨n, h⟩ (i 1)) else 0

/-- The run that holds result entry `i` is number `4 (i₀ / 2048) + i₁ / 1024`. -/
theorem run_of (i : S8192x4096.Idx) : Value.run2Of i = 4 * ((i 0).val / 2048) + (i 1).val / 1024 := by
  show 4 * ((i 0).val / 2048 - 0) + 1 * ((i 1).val / 1024 - 0) = _
  omega

/-- Step `s` of the run that holds result entry `i` adds, at `i`'s place in the block, the terms `512 s … 512 s + 511`. -/
theorem addend_eq (c : Dev nD) (i : S8192x4096.Idx) (s : ℕ) (hs : s < 8) :
    addend m c (8 * Value.run2Of i + s) (Value.loc2Of i) = ∑ k : Fin 512, term m c i (512 * s + k.val) := by
  have hi0 : (i 0).val < 8192 := (i 0).isLt
  have hi1 : (i 1).val < 4096 := (i 1).isLt
  have hr := run_of i
  have ht : 8 * Value.run2Of i + s < cfg0.N := by rw [show cfg0.N = 128 from N_0, hr]; omega
  unfold addend
  rw [dif_pos ht]
  refine Finset.sum_congr rfl fun k _ => ?_
  have hk : 512 * s + k.val < 4096 := by have := k.isLt; omega
  unfold term
  rw [dif_pos hk]
  have el : leftBlock m c ⟨8 * Value.run2Of i + s, ht⟩ (ix2 (Value.loc2Of i 0) k) = leftArr m c (ix2 (i 0) ⟨512 * s + k.val, hk⟩) :=
    Blocks.left_block_apply m c ⟨8 * Value.run2Of i + s, ht⟩ (ix2 (Value.loc2Of i 0) k) (ix2 (i 0) ⟨512 * s + k.val, hk⟩)
      (by show (i 0).val = 2048 * ((8 * Value.run2Of i + s) / 32) + (i 0).val % 2048; rw [hr]; omega)
      (by show 512 * s + k.val = 512 * ((8 * Value.run2Of i + s) % 8) + k.val; rw [hr]; omega)
  have er : rightBlock m c ⟨8 * Value.run2Of i + s, ht⟩ (ix2 k (Value.loc2Of i 1)) = weightArr m c (ix2 ⟨512 * s + k.val, hk⟩ (i 1)) :=
    Blocks.right_block_apply m c ⟨8 * Value.run2Of i + s, ht⟩ (ix2 k (Value.loc2Of i 1)) (ix2 ⟨512 * s + k.val, hk⟩ (i 1))
      (by show 512 * s + k.val = 512 * ((8 * Value.run2Of i + s) % 8) + k.val; rw [hr]; omega)
      (by show (i 1).val = 1024 * ((8 * Value.run2Of i + s) / 8 % 4) + (i 1).val % 1024; rw [hr]; omega)
  rw [el, er]

/-! ## The result array -/

/-- THE KERNEL'S RESULT at entry `i`: the full contraction `∑ n < 4096, x (i₀, n) * W (n, i₁)` of the left operand's row
    with the staged weight's column. -/
theorem result_apply (c : Dev nD) (i : S8192x4096.Idx) :
    Value.G2 m c i = ∑ n : Fin 4096, leftArr m c (ix2 (i 0) n) * weightArr m c (ix2 n (i 1)) := by
  have hi0 : (i 0).val < 8192 := (i 0).isLt
  have hi1 : (i 1).val < 4096 := (i 1).isLt
  have hr := run_of i
  have hrun : 8 * Value.run2Of i + 7 < cfg0.N := by rw [show cfg0.N = 128 from N_0, hr]; omega
  unfold Value.G2
  rw [dif_pos hrun, fold_apply, zero_add]
  have hterm : ∀ n : Fin 4096, leftArr m c (ix2 (i 0) n) * weightArr m c (ix2 n (i 1)) = term m c i n.val := fun n => by
    unfold term
    rw [dif_pos n.isLt]
  rw [Finset.sum_congr rfl fun n _ => hterm n, Cert.BlockSum.sum_blocks 8 512 4096 rfl (term m c i)]
  show (∑ s ∈ Finset.range 8, addend m c (8 * Value.run2Of i + s) (Value.loc2Of i) : EReal)
    = ∑ s ∈ Finset.range 8, ∑ k : Fin 512, term m c i (512 * s + k.val)
  exact Finset.sum_congr rfl fun s hs => addend_eq m c i s (Finset.mem_range.mp hs)

end Cert.KernelIdeal.KernelValue

end
-- ==== Proof.Weights.lean ====
/-
  The weight array the kernel's region finds is the reference's weight matrix.
  Before the region the kernel's host operations rebuild the weight from the quantized fields by the very operations
  the reference applies, in the same order (the per-16 scale, the per-128 scale, the per-32 scale, the join of the two
  parts along the columns, the transpose), and then narrow it to bf16, which at the exact values changes nothing. So
  the staged array is, entry by entry, the transposed dequantized weight the reference contracts against.
-/
import proofs.«423194_j89979564851799_3_alg».proof.Proof.Gen.KernelIdeal.Frame
import proofs.«423194_j89979564851799_3_alg».proof.Proof.Gen.ReferenceIdeal.Read
import Idealize.ShloMosaic.Lib.StableHlo.Run

noncomputable section

namespace Cert.KernelIdeal.Weights

open Cert.KernelIdeal Cert.KernelIdeal.Gen Idealize.ShloMosaic Idealize.ShloMosaic.TcCoe Idealize.SL.Sem

variable (m : (ℓ : Loc nD τ sig) → Buf (Elt Ideal) ℓ)

/-- The transposed dequantized weight, as the reference computes it, of the kernel's own arguments. -/
abbrev weight (c : Dev nD) : S4096x4096.Idx → EReal :=
  Cert.ReferenceIdeal.Read.val_main_v16 (F := Ideal)
    (m ((c : Thread nD τ).loc main_arg1)) (m ((c : Thread nD τ).loc main_arg2)) (m ((c : Thread nD τ).loc main_arg3))
    (m ((c : Thread nD τ).loc main_arg5)) (m ((c : Thread nD τ).loc main_arg6))

/-- What the region finds staged as its right operand is that weight. -/
theorem staged_eq (c : Dev nD) : (V m c main_v17 : S4096x4096.Idx → EReal) = weight m c := by
  dsimp only [Gen.V, Gen.hostOps0]
  after_results
  rfl

end Cert.KernelIdeal.Weights

end
-- ==== Proof.Bridge.lean ====
/-
  The reference's result is the kernel's result.
  The reference contracts the left operand's row `i₀` with column `i₁` of the transposed dequantized weight in one
  sum over `n < 4096`. The kernel's result at `(i₀, i₁)` is the same sum, taken in 8 blocks of 512 terms, of the left
  operand's row with the staged weight's column; and the staged weight is that same transposed dequantized weight.
  Term by term the two sums agree, so the two result arrays are one function of the arguments. No finiteness of the
  inputs is used: only the order and the grouping of the additions differ.
-/
import proofs.«423194_j89979564851799_3_alg».proof.Proof.KernelValue
import proofs.«423194_j89979564851799_3_alg».proof.Proof.Weights

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The reference's product, of the kernel's own arguments, is what the kernel leaves in its result array. -/
theorem reference_eq (c : Dev nD) :
    Cert.ReferenceIdeal.Read.val_main_v17 (F := Ideal)
      (m ((c : Thread nD τ).loc main_arg0)) (m ((c : Thread nD τ).loc main_arg1)) (m ((c : Thread nD τ).loc main_arg2))
      (m ((c : Thread nD τ).loc main_arg3)) (m ((c : Thread nD τ).loc main_arg5)) (m ((c : Thread nD τ).loc main_arg6))
    = Value.G2 m c := by
  funext i
  rw [Cert.ReferenceIdeal.Read.val_main_v17_apply, KernelValue.result_apply]
  show (_ : EReal) = _
  refine Finset.sum_congr rfl fun n _ => ?_
  have el : Cert.ReferenceIdeal.Read.lidx_main_v17 i n = ix2 (i 0) n := funext fun a => Fin.ext (by
    match a with
    | ⟨0, _⟩ => rfl
    | ⟨1, _⟩ => rfl)
  have er : Cert.ReferenceIdeal.Read.ridx_main_v17 i n = ix2 n (i 1) := funext fun a => Fin.ext (by
    match a with
    | ⟨0, _⟩ => rfl
    | ⟨1, _⟩ => rfl)
  rw [el, er]
  show _ = KernelValue.leftArr m c (ix2 (i 0) n) * (V m c main_v17 : S4096x4096.Idx → EReal) (ix2 n (i 1))
  rw [Weights.staged_eq]
  rfl

end Cert.KernelIdeal.Bridge

end
-- ==== Proof.lean ====
/-
  A mixed fp4 / fp8 quantized linear layer: `x · Wᵀ` with `W` rebuilt from its quantized fields.
  Both programs rebuild the [4096, 4096] weight `W` from the quantized fields by the same products in the same order
  (per-16 inner scale, per-128 outer scale on the first 3584 columns; per-32 scale on the last 512), join the two parts
  and transpose. The reference then contracts `x` [8192, 4096] with `Wᵀ` in one product. The kernel narrows `Wᵀ` and
  the blocks of `x` to bf16 — the identity on the exact values — and runs a 4 × 4 × 8 grid: output block
  (row-block, column-block) is zeroed at step 0 of the contracted axis and accumulates the product of a [2048, 512]
  block of `x` with a [512, 1024] block of `Wᵀ` at each of the 8 steps.
  On the extended reals entry `(i₀, i₁)` of the kernel's result is `0 + ∑ s < 8, ∑ k < 512, x (i₀, 512 s + k) * Wᵀ (512 s + k, i₁)`,
  and the reference's is `∑ n < 4096, x (i₀, n) * Wᵀ (n, i₁)`: the same terms, grouped in blocks. Addition of extended
  reals is commutative and associative, so the two agree whatever the inputs are; the precondition is not used.
  The argument `w_t` is read by neither program.
-/
import proofs.«423194_j89979564851799_3_alg».proof.Defs
import proofs.«423194_j89979564851799_3_alg».proof.Proof.Gen.Kernel.Frame
import proofs.«423194_j89979564851799_3_alg».proof.Proof.Gen.KernelIdeal.Value
import proofs.«423194_j89979564851799_3_alg».proof.Proof.Gen.Pre_finite_inputs
import proofs.«423194_j89979564851799_3_alg».proof.Proof.Gen.ReferenceIdeal.Run
import proofs.«423194_j89979564851799_3_alg».proof.Proof.Bridge
import Idealize.ShloMosaic.Adequacy
import Idealize.ShloMosaic.Init

noncomputable section

namespace Cert.Proof

open Idealize.ShloMosaic Idealize.SL.Sem

/-- The idealized kernel terminates without a fault and leaves its arguments as they were: its run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the arguments both programs end, the kernel's result array and the reference's holding
    the same extended reals entry by entry: the full contraction of `x`'s row with the dequantized weight's row. -/
theorem algebraic_KernelIdeal_ReferenceIdeal : algebraic_KernelIdeal_ReferenceIdeal := by
  intro m ρ m' ρ' _ hagree
  refine ⟨fun c => Cert.KernelIdeal.Value.G2 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, _, a5, a6⟩ := hagree c
  rw [a0, a1, a2, a3, a5, a6]
  exact (Cert.ReferenceIdeal.Read.val_main_v17_eq _ _ _ _ _ _).trans (Cert.KernelIdeal.Bridge.reference_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
